-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x16384x512 : Shape := ⟨3, ![4, 16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_

variable [Facts]

def fn {F : FTy → Type} [FloatOps F] (main_arg0 : FVec F S16384x512 .f32) (main_arg1 : FVec F S4x16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x16384x512 .f32 := Host.absf main_arg1
  let main_cst_0 : FVec F S_ .f32 := constant S_ .f32 0x7F800000#32
  let main_v5 : FVec F S4x16384x512 .f32 := broadcastInDim S4x16384x512 ![] bcast_S_S4x16384x512 main_cst_0
  let main_v6 : IVec S4x16384x512 1 := cmpf .olt main_v4 main_v5
  let main_c_1 : IVec S_ 1 := constantI S_ 1 1#1
  let main_v7 : IVec S_ 1 := (fun x v => Host.reduce IntOp.andi x v reducesTo_S4x16384x512_S_d0_1_2 h_S_) main_v6 main_c_1
  let main_v8 : IVec S_ 1 := andi main_v3 main_v7
  main_v8
-- ==== Kernel.lean ====
abbrev S16384x512 : Shape := ⟨2, ![16384, 512]⟩
abbrev S4x16384x512 : Shape := ⟨3, ![4, 16384, 512]⟩
abbrev S1x1 : Shape := ⟨2, ![1, 1]⟩
abbrev S512x512 : Shape := ⟨2, ![512, 512]⟩
abbrev S4x512x512 : Shape := ⟨3, ![4, 512, 512]⟩
abbrev S512 : Shape := ⟨1, ![512]⟩
abbrev S512x1 : Shape := ⟨2, ![512, 1]⟩
abbrev S1 : Shape := ⟨1, ![1]⟩
abbrev S4x512 : Shape := ⟨2, ![4, 512]⟩
abbrev S4x512x1 : Shape := ⟨3, ![4, 512, 1]⟩
abbrev S1x512x512 : Shape := ⟨3, ![1, 512, 512]⟩
abbrev S1x512x1 : Shape := ⟨3, ![1, 512, 1]⟩
abbrev S4x1 : Shape := ⟨2, ![4, 1]⟩
abbrev S4x1x1 : Shape := ⟨3, ![4, 1, 1]⟩
abbrev S1x1x1 : Shape := ⟨3, ![1, 1, 1]⟩
abbrev S_ : Shape := ⟨0, ![]⟩
abbrev S2 : Shape := ⟨1, ![2]⟩

abbrev nBuf : Space → Nat
  | .hbm => 9
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x16384x512, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S2, .f32⟩
  | .local _ .vmem, ⟨0, _⟩ => ⟨S512x512, .f32⟩
  | .local _ .vmem, ⟨1, _⟩ => ⟨S512x512, .f32⟩
  | .local _ .vmem, ⟨2, _⟩ => ⟨S4x512x512, .f32⟩
  | .local _ .vmem, ⟨3, _⟩ => ⟨S4x512x512, .f32⟩
  | .local _ .vmem, ⟨4, _⟩ => ⟨S1x1, .f32⟩
  | .local _ .vmem, ⟨5, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x512_S512x512_0_0 : ∀ a, (![0, 0] : Fin 2 → Nat) a + S512x512.size a ≤ S512x512.size a
  h_S512x512 : 0 < S512x512.numel
  inb_S4x512x512_S4x512x512_0_0_0 : ∀ a, (![0, 0, 0] : Fin 3 → Nat) a + S4x512x512.size a ≤ S4x512x512.size a
  h_S4x512x512 : 0 < S4x512x512.numel
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  reduces_S4x512x512_S4x512 : S4x512x512.Reduces [2] S4x512
  shapeCasts_S4x512_S4x512x1 : S4x512.ShapeCasts S4x512x1
  shapeCasts_S512x512_S1x512x512 : S512x512.ShapeCasts S1x512x512
  broadcasts_S1x512x512_S4x512x512 : S1x512x512.Broadcasts S4x512x512
  shapeCasts_S512x1_S1x512x1 : S512x1.ShapeCasts S1x512x1
  broadcasts_S1x512x1_S4x512x1 : S1x512x1.Broadcasts S4x512x1
  reduces_S4x512x1_S4x1 : S4x512x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x16384x512.size a
  hwx0_1 : ∀ i : grid0.Coords, EltTy.bits .f32 = 32 ∨ (Rect.block (s := S4x16384x512) S4x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x16384x512 : Shape := ⟨3, ![4, 16384, 512]⟩
abbrev S_ : Shape := ⟨0, ![]⟩
abbrev S16384 : Shape := ⟨1, ![16384]⟩
abbrev S16384x1 : Shape := ⟨2, ![16384, 1]⟩
abbrev S4x16384 : Shape := ⟨2, ![4, 16384]⟩
abbrev S4x16384x1 : Shape := ⟨3, ![4, 16384, 1]⟩
abbrev S1x16384x512 : Shape := ⟨3, ![1, 16384, 512]⟩
abbrev S1 : Shape := ⟨1, ![1]⟩
abbrev S2 : Shape := ⟨1, ![2]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x16384x512, .f32⟩
  | .hbm, ⟨2, _⟩ => ⟨S16384x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x512, .f32⟩
  | .hbm, ⟨15, _⟩ => ⟨S16384x512, .f32⟩
  | .hbm, ⟨16, _⟩ => ⟨S4x16384x512, .f32⟩
  | .hbm, ⟨17, _⟩ => ⟨S_, .f32⟩
  | .hbm, ⟨18, _⟩ => ⟨S4x16384, .f32⟩
  | .hbm, ⟨19, _⟩ => ⟨S4x16384x1, .f32⟩
  | .hbm, ⟨20, _⟩ => ⟨S4x16384x1, .f32⟩
  | .hbm, ⟨21, _⟩ => ⟨S_, .f32⟩
  | .hbm, ⟨22, _⟩ => ⟨S4x16384x1, .f32⟩
  | .hbm, ⟨23, _⟩ => ⟨S4x16384x1, .f32⟩
  | .hbm, ⟨24, _⟩ => ⟨S4x16384x512, .f32⟩
  | .hbm, ⟨25, _⟩ => ⟨S4x16384x512, .f32⟩
  | .hbm, ⟨26, _⟩ => ⟨S1x16384x512, .f32⟩
  | .hbm, ⟨27, _⟩ => ⟨S4x16384x512, .f32⟩
  | .hbm, ⟨28, _⟩ => ⟨S4x16384x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S2, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S16384x512_S_d0_1 : S16384x512.ReducesTo [0, 1] S_
  h_S_ : 0 < S_.numel
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4x16384x512_S4x16384_d2 : S4x16384x512.ReducesTo [2] S4x16384
  bcast_S4x16384_S4x16384x1_0_1 : S4x16384.BroadcastsInDim S4x16384x1 (![0, 1] : Fin 2 → Fin S4x16384x1.rank)
  bcast_S_S4x16384x1 : S_.BroadcastsInDim S4x16384x1 (![] : Fin 0 → Fin S4x16384x1.rank)
  bcast_S4x16384x1_S4x16384x512_0_1_2 : S4x16384x1.BroadcastsInDim S4x16384x512 (![0, 1, 2] : Fin 3 → Fin S4x16384x512.rank)
  bcast_S16384x512_S1x16384x512_1_2 : S16384x512.BroadcastsInDim S1x16384x512 (![1, 2] : Fin 2 → Fin S1x16384x512.rank)
  bcast_S1x16384x512_S4x16384x512_0_1_2 : S1x16384x512.BroadcastsInDim S4x16384x512 (![0, 1, 2] : Fin 3 → Fin S4x16384x512.rank)
  reducesTo_S4x16384x512_S_d0_1_2 : S4x16384x512.ReducesTo [0, 1, 2] S_
  bcast_S_S1 : S_.BroadcastsInDim S1 (![] : Fin 0 → Fin S1.rank)
  concatenates_S1_S1_S2_d0 : Shape.Concatenates [S1, S1] S2 0

variable [Facts₀]

class Facts : Prop extends Facts₀ where

variable [Facts]
-- ==== Proof.FiniteInputs.lean ====
/-
  What the precondition says: both argument arrays hold real numbers (every entry's absolute value is below +∞).
-/
import proofs.«132644_j36155034697795_1_alg».proof.Pre_finite_inputs
import proofs.«132644_j36155034697795_1_alg».proof.Proof.Gen.Pre_finite_inputs
import Idealize.ShloMosaic.PureOps.Ideal
import Idealize.ShloMosaic.Lib.ValueIdx
import Idealize.ShloMosaic.Lib.ReduceAll

noncomputable section

open Idealize.ShloMosaic Idealize.ShloMosaic.ValueIdx

namespace Cert.CosLoss

/-- Under `finite_inputs` every entry of both arrays is a real number. -/
theorem real_of_pre (x0 : FVec Ideal ⟨2, ![16384, 512]⟩ .f32) (x1 : FVec Ideal ⟨3, ![4, 16384, 512]⟩ .f32)
    (h : Cert.Pre_finite_inputs.fn (F := Ideal) x0 x1 = fun _ => 1#1) :
    ∃ (zc : Fin 16384 → Fin 512 → ℝ) (zs : Fin 4 → Fin 16384 → Fin 512 → ℝ),
      (∀ n d, x0 (ix2 n d) = ((zc n d : ℝ) : EReal)) ∧ (∀ v n d, x1 (ix3 v n d) = ((zs v n d : ℝ) : EReal)) := by
  -- the result shape has a single index, so the conjunction and both reductions are read at that index
  haveI : Subsingleton (⟨0, ![]⟩ : Shape).Idx := ⟨fun a b => funext fun d => d.elim0⟩
  have h' := congrFun h ValueIdx.ix0
  dsimp only [Cert.Pre_finite_inputs.fn] at h'
  -- a conjunction of two bits is 1 exactly when both are
  obtain ⟨h0, h1⟩ := IntOp.andi_eq_one.1 h'
  -- the word 0x7F800000 denotes +∞
  have htop : Ideal.ofBits .f32 0x7F800000#32 = ⊤ := by simp [Ideal.ofBits, Ideal.ieee]
  -- an extended real whose absolute value max x (-x) is strictly below +∞ is a real number:
  -- at ⊥ and at ⊤ the absolute value is ⊤, which is not below ⊤
  have key : ∀ x : EReal, Ideal.cmp .olt (max x (-x)) (Ideal.ofBits .f32 0x7F800000#32) = 1#1 →
      ∃ r : ℝ, x = (r : EReal) := by
    intro x hx
    rw [htop] at hx
    induction x using EReal.rec with
    | bot => simp [Ideal.cmp] at hx
    | coe r => exact ⟨r, rfl⟩
    | top => simp [Ideal.cmp] at hx
  -- a reduction by conjunction over all axes that is 1 had a 1 at every index: |entry| < +∞ everywhere
  have hc : ∀ n d, ∃ r : ℝ, x0 (ix2 n d) = (r : EReal) := fun n d =>
    key _ (Host.reduce_andi_all _ _ _ _ _ h0 (ix2 n d))
  have hs : ∀ v n d, ∃ r : ℝ, x1 (ix3 v n d) = (r : EReal) := fun v n d =>
    key _ (Host.reduce_andi_all _ _ _ _ _ h1 (ix3 v n d))
  choose zc hzc using hc
  choose zs hzs using hs
  exact ⟨zc, zs, hzc, hzs⟩

end Cert.CosLoss

end
-- ==== Proof.KernelPieces.lean ====
/-
  What one run of the kernel body leaves in the two accumulators, read back as values of the body's own arithmetic.
  At the first grid point the body zeroes both accumulators and then adds that tile's terms to the zeros; at every
  later point it adds the tile's terms to what the point before left. In both cases each accumulator ends at ONE
  covering store, whose value is the accumulator's previous content plus (0 − the tile's term):
  `k0_pay5 x acc` for the sum of squares and `k0_pay1 (k0_pay6 x y) acc` for the sum of cosines.
-/
import proofs.«132644_j36155034697795_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point, first accumulator: the previous content `xo2` plus (0 − the tile's sum of squares). -/
theorem out_B_2 (c : Dev nD) (i : grid0.Coords) (a1 : Memref sig .tc .vmem S512x512 .f32) (h1 : a1.IsWhole)
    (a2 : Memref sig .tc .vmem S4x512x512 .f32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S512x512 .f32) (x1 : Vec F S4x512x512 .f32) (xo2 xo3 : Vec F S1x1 .f32) :
    out0_B_2 c i a1 h1 a2 h2 a3 h3 a4 h4 hc x0 x1 xo2 xo3 = k0_pay5 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h3.read_unread, View.ld_unit_zero (S := S512x512) hz2,
    View.ld_unit_zero (S := S1x1) hz2]

/-- A later point, second accumulator: the previous content `xo3` plus (0 − the tile's sum of cosines). -/
theorem out_B_3 (c : Dev nD) (i : grid0.Coords) (a1 : Memref sig .tc .vmem S512x512 .f32) (h1 : a1.IsWhole)
    (a2 : Memref sig .tc .vmem S4x512x512 .f32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S512x512 .f32) (x1 : Vec F S4x512x512 .f32) (xo2 xo3 : Vec F S1x1 .f32) :
    out0_B_3 c i a1 h1 a2 h2 a3 h3 a4 h4 hc x0 x1 xo2 xo3 = k0_pay1 (k0_pay6 x0 x1) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h4.read_unread, View.ld_unit_zero (S := S512x512) hz2,
    View.ld_unit_zero (S := S4x512x512) hz3, View.ld_unit_zero (S := S1x1) hz2]

/-- The first point, first accumulator: the zero just stored plus (0 − the tile's sum of squares). -/
theorem out_A_2 (c : Dev nD) (i : grid0.Coords) (a1 : Memref sig .tc .vmem S512x512 .f32) (h1 : a1.IsWhole)
    (a2 : Memref sig .tc .vmem S4x512x512 .f32) (h2 : a2.IsWhole) (a3 : Memref sig .tc .vmem S1x1 .f32) (h3 : a3.IsWhole)
    (a4 : Memref sig .tc .vmem S1x1 .f32) (h4 : a4.IsWhole) (hc : cond0_0 i)
    (x0 : Vec F S512x512 .f32) (x1 : Vec F S4x512x512 .f32) :
    out0_A_2 c i a1 h1 a2 h2 a3 h3 a4 h4 hc x0 x1 = k0_pay5 x0 (k0_pay2 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz2]
  simp only [View.readAt_eq_ld, h1.read_unread, View.ld_unit_zero (S := S512x512) hz2,
    View.readCov_unit_zero (S := S1x1) _ hz2]

/-- The first point, second accumulator: the zero just stored plus (0 − the tile's sum of cosines). -/
theorem out_A_3 (c : Dev nD) (i : grid0.Coords) (a1 : Memref sig .tc .vmem S512x512 .f32) (h1 : a1.IsWhole)
    (a2 : Memref sig .tc .vmem S4x512x512 .f32) (h2 : a2.IsWhole) (a3 : Memref sig .tc .vmem S1x1 .f32) (h3 : a3.IsWhole)
    (a4 : Memref sig .tc .vmem S1x1 .f32) (h4 : a4.IsWhole) (hc : cond0_0 i)
    (x0 : Vec F S512x512 .f32) (x1 : Vec F S4x512x512 .f32) :
    out0_A_3 c i a1 h1 a2 h2 a3 h3 a4 h4 hc x0 x1 = k0_pay1 (k0_pay6 x0 x1) (k0_pay3 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz2]
  simp only [View.readAt_eq_ld, h1.read_unread, h2.read_unread, View.ld_unit_zero (S := S512x512) hz2,
    View.ld_unit_zero (S := S4x512x512) hz3, View.readCov_unit_zero (S := S1x1) _ hz2]

end Cert.KernelIdeal.Pieces

end
-- ==== Proof.LibKeepdims.lean ====
/-
  LAYOUT OPERATIONS OF A `keepdims=True` REDUCTION, READ AT AN INDEX GIVEN BY COORDINATES. A `jnp.sum(x, axis=-1,
  keepdims=True)` lowers to a reduction that drops the axis followed by a shape cast that puts a unit axis back in
  its place, and the kept column is then broadcast against arrays with more leading entries. Each lemma reads one such
  operation at an index written `ixN …` (Lib/ValueIdx.lean) as the operand at an index written the same way:
  • `shapeCast_a_a1_apply`: an `[a]` vector cast to the column `[a, 1]`;
  • `shapeCast_ab_ab1_apply`: an `[a, b]` array cast to `[a, b, 1]`;
  • `broadcastTo_1ab_mab_apply`: a `[1, a, b]` array broadcast along its unit leading axis to `[m, a, b]`.
  They are Lib/Pipeline/Value.lean's `shapeCast_apply` and `broadcastTo_apply` with the row-major arithmetic done.
-/
import Idealize.ShloMosaic.Lib.Pipeline.Value
import Idealize.ShloMosaic.Lib.ValueIdx

namespace Idealize.ShloMosaic.ValueIdx

open Idealize.ShloMosaic

variable {α : Type}

/-- An `[a]` vector cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`: both have row-major
    position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, a, b]` array broadcast to `[m, a, b]` reads, at `(v, i, j)`, the operand's one slab at `(i, j)`. -/
theorem broadcastTo_1ab_mab_apply {m a b : ℕ} (x : (⟨3, ![1, a, b]⟩ : Shape).Idx → α)
    (h : (⟨3, ![1, a, b]⟩ : Shape).Broadcasts ⟨3, ![m, a, b]⟩) (v : Fin m) (i : Fin a) (j : Fin b) :
    broadcastTo ⟨3, ![m, a, b]⟩ x h (ix3 v i j) = x (ix3 (0 : Fin 1) i j) := by
  refine broadcastTo_apply x h (ix3 v i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Idealize.ShloMosaic.ValueIdx
-- ==== Proof.KernelTile.lean ====
/-
  One tile's arithmetic at the ideal instance, read at its one output entry. For a tile `x` (512 rows of the common
  array) and the matching tile `y` of the four views, with `rowSq x r = Σ_d x(r,d)²`, `rowSqS y v r = Σ_d y(v,r,d)²`
  and `rowDot x y v r = Σ_d x(r,d)·y(v,r,d)`:
    the first accumulator's new value is  acc + (0 − Σ_r rowSq x r);
    the second's is  acc + (0 − Σ_v Σ_r rowDot x y v r / (max(√rowSq x r, ε) · max(√rowSqS y v r, ε))).
  Every reduction is over one axis and is a plain finite sum at this instance; the shape casts and broadcasts in between
  only move the kept unit axes around.
-/
import proofs.«132644_j36155034697795_1_alg».proof.Proof.Gen.KernelIdeal.Skeleton
import proofs.«132644_j36155034697795_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- A row's sum of squares, a row of a view's sum of squares, and the two rows' dot product, over the extended reals. -/
def rowSq (x : S512x512.Idx → EReal) (r : Fin 512) : EReal := ∑ d : Fin 512, x (ix2 r d) * x (ix2 r d)
def rowSqS (y : S4x512x512.Idx → EReal) (v : Fin 4) (r : Fin 512) : EReal := ∑ d : Fin 512, y (ix3 v r d) * y (ix3 v r d)
def rowDot (x : S512x512.Idx → EReal) (y : S4x512x512.Idx → EReal) (v : Fin 4) (r : Fin 512) : EReal :=
  ∑ d : Fin 512, x (ix2 r d) * y (ix3 v r d)
/-- The floor under the norms. -/
def epsE : EReal := Ideal.ofBits .f32 0x2B8CBCCC#32
/-- A row's cosine term. -/
def cosE (x : S512x512.Idx → EReal) (y : S4x512x512.Idx → EReal) (v : Fin 4) (r : Fin 512) : EReal :=
  Ideal.div (rowDot x y v r) (max (Ideal.sqrt (rowSq x r)) epsE * max (Ideal.sqrt (rowSqS y v r)) epsE)

/-- The column of row sums of squares. -/
theorem pay4_apply (x : Vec Ideal S512x512 .f32) (r : Fin 512) (u : Fin 1) :
    k0_pay4 (F := Ideal) x (ix2 r u) = rowSq x r := by
  unfold k0_pay4
  refine (shapeCast_a_a1_apply _ _ r u).trans ?_
  refine (Ideal.multiReduction_add_single _ _ _ _ _ (ix1 r)).trans ?_
  refine Finset.sum_congr rfl fun (d : Fin 512) _ => ?_
  have e : reduces_S512x512_S512.lift (ix1 r) d = ix2 r d := funext fun a => by
    match a with
    | ⟨0, _⟩ => rfl
    | ⟨1, _⟩ => rfl
  rw [e]; rfl

/-- The first accumulator's new value. -/
theorem pay5_apply (x : Vec Ideal S512x512 .f32) (v : Vec Ideal S1x1 .f32) (j : S1x1.Idx) :
    k0_pay5 (F := Ideal) x v j = v j + (0 - ∑ r : Fin 512, rowSq x r) := by
  obtain ⟨p, q, rfl⟩ : ∃ (p q : Fin 1), j = ix2 p q := ⟨j 0, j 1, eq_ix2 j⟩
  unfold k0_pay5
  rw [addf_apply, subf_apply, broadcast_apply, shapeCast_self]
  refine congrArg (v (ix2 p q) + ·) ?_
  refine congrArg₂ (· - ·) Ideal.ofBits_zero_f32 ?_
  refine (shapeCast_a_a1_apply _ _ p q).trans ?_
  refine (Ideal.multiReduction_add_single _ _ _ _ _ (ix1 p)).trans ?_
  refine Finset.sum_congr rfl fun (r : Fin 512) _ => ?_
  have e : reduces_S512x1_S1.lift (ix1 p) r = ix2 r (0 : Fin 1) := funext fun a => by
    match a with
    | ⟨0, _⟩ => rfl
    | ⟨1, h⟩ =>
      have h1 : (reduces_S512x1_S1.lift (ix1 p) r ⟨1, h⟩).val < 1 := (reduces_S512x1_S1.lift (ix1 p) r ⟨1, h⟩).isLt
      exact Fin.ext (by show _ = 0; omega)
  rw [e]
  exact pay4_apply x r 0

/-- A square root and a product of vectors read at an index (definitional at this instance). -/
theorem sqrt_apply {s : Shape} {φ : FTy} (a : FVec Ideal s φ) (i : s.Idx) : sqrt a i = Ideal.sqrt (a i) := rfl

/-- The tile's sum of cosines: over the four views and the tile's 512 rows. -/
theorem pay6_apply (x : Vec Ideal S512x512 .f32) (y : Vec Ideal S4x512x512 .f32) (j : S1x1.Idx) :
    k0_pay6 (F := Ideal) x y j = ∑ v : Fin 4, ∑ r : Fin 512, cosE x y v r := by
  obtain ⟨p, q, rfl⟩ : ∃ (p q : Fin 1), j = ix2 p q := ⟨j 0, j 1, eq_ix2 j⟩
  have e2 : ∀ (v : Fin 4) (r d : Fin 512), reduces_S4x512x512_S4x512.lift (ix2 v r) d = ix3 v r d := fun v r d =>
    funext fun a => by
      match a with
      | ⟨0, _⟩ => rfl
      | ⟨1, _⟩ => rfl
      | ⟨2, _⟩ => rfl
  unfold k0_pay6
  refine (Ideal.multiReduction_add_single _ _ _ _ _ (ix2 p q)).trans ?_
  refine Finset.sum_congr rfl fun (v : Fin 4) _ => ?_
  have e0 : reduces_S4x1x1_S1x1.lift (ix2 p q) v = ix3 v p q := funext fun a => by
    match a with
    | ⟨0, _⟩ => rfl
    | ⟨1, _⟩ => rfl
    | ⟨2, _⟩ => rfl
  rw [e0]
  refine (shapeCast_ab_ab1_apply _ _ v p q).trans ?_
  refine (Ideal.multiReduction_add_single _ _ _ _ _ (ix2 v p)).trans ?_
  refine Finset.sum_congr rfl fun (r : Fin 512) _ => ?_
  have e1 : reduces_S4x512x1_S4x1.lift (ix2 v p) r = ix3 v r p := funext fun a => by
    match a with
    | ⟨0, _⟩ => rfl
    | ⟨1, _⟩ => rfl
    | ⟨2, _⟩ => rfl
  refine (congrArg (divf _ _) e1).trans ?_
  refine (divf_apply _ _ _).trans ?_
  unfold cosE
  refine congrArg₂ Ideal.div ?_ ?_
  · refine (shapeCast_ab_ab1_apply _ _ v r p).trans ?_
    refine (Ideal.multiReduction_add_single _ _ _ _ _ (ix2 v r)).trans ?_
    refine Finset.sum_congr rfl fun (d : Fin 512) _ => ?_
    refine (congrArg (mulf _ _) (e2 v r d)).trans ?_
    refine (mulf_apply _ _ _).trans ?_
    refine congrArg (· * y (ix3 v r d)) ?_
    refine (broadcastTo_1ab_mab_apply _ _ v r d).trans ?_
    exact shapeCast_ab_1ab_apply _ _ 0 r d
  · refine (mulf_apply _ _ _).trans ?_
    refine congrArg₂ (· * ·) ?_ ?_
    · refine (broadcastTo_1ab_mab_apply _ _ v r p).trans ?_
      refine (shapeCast_ab_1ab_apply _ _ 0 r p).trans ?_
      rw [maximumf_apply, broadcast_apply, sqrt_apply, pay4_apply]
      rfl
    · refine (maximumf_apply _ _ _).trans ?_
      refine congrArg₂ max ((sqrt_apply _ _).trans (congrArg Ideal.sqrt ?_)) rfl
      refine (shapeCast_ab_ab1_apply _ _ v r p).trans ?_
      refine (Ideal.multiReduction_add_single _ _ _ _ _ (ix2 v r)).trans ?_
      refine Finset.sum_congr rfl fun (d : Fin 512) _ => ?_
      rw [e2]
      rfl

/-- The second accumulator's new value, from the tile's sum `s`. -/
theorem pay1_apply (s : FVec Ideal S1x1 .f32) (v : Vec Ideal S1x1 .f32) (j : S1x1.Idx) :
    k0_pay1 (F := Ideal) s v j = v j + (0 - s j) := by
  unfold k0_pay1
  rw [addf_apply, subf_apply, broadcast_apply, shapeCast_self, shapeCast_shapeCast]
  exact congrArg (v j + ·) (congrArg (· - s j) Ideal.ofBits_zero_f32)

end Cert.KernelIdeal.Tile

end
-- ==== Proof.RealLoss.lean ====
/-
  The two losses over the REALS, as the reference computes them (whole-array sums) and as the kernel accumulates
  them (one term per tile of 512 rows), and the fact that joins the two: summing the 32 tiles' terms is summing over
  all 16384 rows, and a row's sum of products of the two normalised rows is the cosine
  (Σ_d (x_d / a)(y_d / b) = (Σ_d x_d y_d) / (a b)).
-/
import Idealize.ShloMosaic.PureOps.Ideal

noncomputable section

open scoped BigOperators

namespace Cert.CosLoss

/-- Row `r` of tile `t`: the tiles are consecutive blocks of 512 rows. -/
def row (t : Fin 32) (r : Fin 512) : Fin 16384 := ⟨512 * t.val + r.val, by omega⟩

variable (zc : Fin 16384 → Fin 512 → ℝ) (zs : Fin 4 → Fin 16384 → Fin 512 → ℝ) (ε : ℝ)

/-- A row's sum of squares, for the common array and for view `v` of the special array. -/
def sqC (n : Fin 16384) : ℝ := ∑ d : Fin 512, zc n d * zc n d
def sqS (v : Fin 4) (n : Fin 16384) : ℝ := ∑ d : Fin 512, zs v n d * zs v n d
/-- A row's norm, floored at `ε`. -/
def normC (n : Fin 16384) : ℝ := max (Real.sqrt (sqC zc n)) ε
def normS (v : Fin 4) (n : Fin 16384) : ℝ := max (Real.sqrt (sqS zs v n)) ε
/-- The cosine of row `n` of the common array with row `n` of view `v`. -/
def cosine (v : Fin 4) (n : Fin 16384) : ℝ := (∑ d : Fin 512, zc n d * zs v n d) / (normC zc ε n * normS zs ε v n)

/-- The whole-array forms: minus the sum of all squares; minus the sum over every entry of the product of the two
    normalised entries. -/
def lossCommon : ℝ := -∑ n : Fin 16384, ∑ d : Fin 512, zc n d * zc n d
def lossSpecial : ℝ :=
  -∑ v : Fin 4, ∑ n : Fin 16384, ∑ d : Fin 512, (zc n d / normC zc ε n) * (zs v n d / normS zs ε v n)

/-- What one tile contributes. -/
def tileCommon (t : Fin 32) : ℝ := ∑ r : Fin 512, sqC zc (row t r)
def tileSpecial (t : Fin 32) : ℝ := ∑ v : Fin 4, ∑ r : Fin 512, cosine zc zs ε v (row t r)

/-- The same with the tile a natural number (zero past the last tile), -/
def tileCommonN (k : ℕ) : ℝ := if h : k < 32 then tileCommon zc ⟨k, h⟩ else 0
def tileSpecialN (k : ℕ) : ℝ := if h : k < 32 then tileSpecial zc zs ε ⟨k, h⟩ else 0
/-- and the running totals after tile `n`: minus the sum of the tiles' terms up to and including `n`. -/
def accCommon (n : ℕ) : ℝ := -∑ k ∈ Finset.range (n + 1), tileCommonN zc k
def accSpecial (n : ℕ) : ℝ := -∑ k ∈ Finset.range (n + 1), tileSpecialN zc zs ε k

/-- Summing over the tiles and, within a tile, over its rows is summing over all rows: the map sending tile t and
    row r to 512 t + r is a bijection from Fin 32 × Fin 512 onto Fin 16384. -/
private theorem sum_tiles (g : Fin 16384 → ℝ) :
    ∑ t : Fin 32, ∑ r : Fin 512, g (row t r) = ∑ n : Fin 16384, g n := by
  rw [← Fintype.sum_prod_type' (fun t r => g (row t r))]
  refine Fintype.sum_equiv (finProdFinEquiv : Fin 32 × Fin 512 ≃ Fin (32 * 512)) _ _ (fun x => ?_)
  refine congrArg g (Fin.ext ?_)
  rw [finProdFinEquiv_apply_val]
  show 512 * x.1.val + x.2.val = x.2.val + 512 * x.1.val
  omega

/-- A tile's term read at a natural number below 32 is the tile's term. -/
private theorem tileCommonN_val (t : Fin 32) : tileCommonN zc t.val = tileCommon zc t := by
  unfold tileCommonN
  rw [dif_pos t.isLt]

private theorem tileSpecialN_val (t : Fin 32) : tileSpecialN zc zs ε t.val = tileSpecial zc zs ε t := by
  unfold tileSpecialN
  rw [dif_pos t.isLt]

theorem accCommon_zero : accCommon zc 0 = 0 + (0 - tileCommon zc 0) := by
  have h0 : tileCommonN zc 0 = tileCommon zc 0 := tileCommonN_val zc 0
  show -∑ k ∈ Finset.range 1, tileCommonN zc k = _
  rw [Finset.sum_range_one, h0]
  ring

theorem accCommon_succ (n : ℕ) (h : n + 1 < 32) :
    accCommon zc (n + 1) = accCommon zc n + (0 - tileCommon zc ⟨n + 1, h⟩) := by
  have h1 : tileCommonN zc (n + 1) = tileCommon zc ⟨n + 1, h⟩ := tileCommonN_val zc ⟨n + 1, h⟩
  unfold accCommon
  rw [Finset.sum_range_succ _ (n + 1), h1]
  ring

/-- The 32 tiles are all the rows. -/
theorem accCommon_last : accCommon zc 31 = lossCommon zc := by
  show -∑ k ∈ Finset.range 32, tileCommonN zc k = -∑ n : Fin 16384, ∑ d : Fin 512, zc n d * zc n d
  rw [← Fin.sum_univ_eq_sum_range (tileCommonN zc) 32]
  simp only [tileCommonN_val]
  unfold tileCommon
  rw [sum_tiles (sqC zc)]
  rfl

theorem accSpecial_zero : accSpecial zc zs ε 0 = 0 + (0 - tileSpecial zc zs ε 0) := by
  have h0 : tileSpecialN zc zs ε 0 = tileSpecial zc zs ε 0 := tileSpecialN_val zc zs ε 0
  show -∑ k ∈ Finset.range 1, tileSpecialN zc zs ε k = _
  rw [Finset.sum_range_one, h0]
  ring

theorem accSpecial_succ (n : ℕ) (h : n + 1 < 32) :
    accSpecial zc zs ε (n + 1) = accSpecial zc zs ε n + (0 - tileSpecial zc zs ε ⟨n + 1, h⟩) := by
  have h1 : tileSpecialN zc zs ε (n + 1) = tileSpecial zc zs ε ⟨n + 1, h⟩ :=
    tileSpecialN_val zc zs ε ⟨n + 1, h⟩
  unfold accSpecial
  rw [Finset.sum_range_succ _ (n + 1), h1]
  ring

/-- The 32 tiles are all the rows, and a row's sum of products of normalised entries is its cosine. -/
theorem accSpecial_last : accSpecial zc zs ε 31 = lossSpecial zc zs ε := by
  show -∑ k ∈ Finset.range 32, tileSpecialN zc zs ε k =
    -∑ v : Fin 4, ∑ n : Fin 16384, ∑ d : Fin 512, (zc n d / normC zc ε n) * (zs v n d / normS zs ε v n)
  rw [← Fin.sum_univ_eq_sum_range (tileSpecialN zc zs ε) 32]
  simp only [tileSpecialN_val]
  unfold tileSpecial
  -- bring the sum over the views outside, then join tiles and rows view by view
  rw [Finset.sum_comm, neg_inj]
  refine Finset.sum_congr rfl (fun v _ => ?_)
  rw [sum_tiles (cosine zc zs ε v)]
  refine Finset.sum_congr rfl (fun n _ => ?_)
  -- a row's sum of products of normalised entries is its cosine
  unfold cosine
  rw [Finset.sum_div]
  refine Finset.sum_congr rfl (fun d _ => ?_)
  rw [div_mul_div_comm]

end Cert.CosLoss

end
-- ==== Proof.IdealReal.lean ====
/-
  The ideal instance's operations on REAL arguments: a finite sum of reals, a quotient by a nonzero real, the square
  root of a nonnegative real and a maximum of reals are the reals' own, and the floor `ε` both programs use (the
  pattern 0x2B8CBCCC, the float nearest 1e-12) is a positive real.
-/
import Idealize.ShloMosaic.PureOps.Ideal
import Idealize.ShloMosaic.PureOps.Ideal.Laws

noncomputable section

open scoped BigOperators
open Idealize.ShloMosaic

namespace Cert.CosLoss

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, mul_one_div]

theorem sqrt_coe_nonneg (x : ℝ) (hx : 0 ≤ x) : Ideal.sqrt (x : EReal) = ((Real.sqrt x : ℝ) : EReal) := by
  rw [Ideal.sqrt_coe, if_neg (not_lt.mpr hx)]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The floor under both norms: 9223372 · 2⁻⁶³, the float nearest 1e-12. -/
def eps : ℝ := 9223372 * (2 : ℝ) ^ (-63 : ℤ)

theorem eps_pos : 0 < eps := by
  unfold eps
  positivity

theorem ofBits_eps : Ideal.ofBits .f32 0x2B8CBCCC#32 = ((eps : ℝ) : EReal) := by
  simp [Ideal.ofBits, Ideal.ieee, eps]

end Cert.CosLoss

end
-- ==== Proof.KernelTileReal.lean ====
/-
  One tile's two updates on REAL inputs. When the tile `x` holds rows 512·t … 512·t+511 of a real array `zc`, the
  matching tile `y` the same rows of the four real views `zs`, and an accumulator holds the real `a`, the first
  accumulator's new value is the real `a + (0 − tileCommon zc t)` and the second's `a + (0 − tileSpecial zc zs ε t)`:
  sums of squares of reals are nonnegative reals, their square roots are reals, and both floored norms are at least
  ε > 0, so every quotient is a quotient of reals by a nonzero real.
-/
import proofs.«132644_j36155034697795_1_alg».proof.Proof.KernelTile
import proofs.«132644_j36155034697795_1_alg».proof.Proof.RealLoss
import proofs.«132644_j36155034697795_1_alg».proof.Proof.IdealReal

noncomputable section

open scoped BigOperators
open Idealize.ShloMosaic Idealize.ShloMosaic.ValueIdx

namespace Cert.KernelIdeal.Tile

open Cert.KernelIdeal Cert.KernelIdeal.Gen Cert.CosLoss

variable (zc : Fin 16384 → Fin 512 → ℝ) (zs : Fin 4 → Fin 16384 → Fin 512 → ℝ) (t : Fin 32)

theorem sqC_nonneg (n : Fin 16384) : 0 ≤ sqC zc n := Finset.sum_nonneg fun d _ => mul_self_nonneg _
theorem sqS_nonneg (v : Fin 4) (n : Fin 16384) : 0 ≤ sqS zs v n := Finset.sum_nonneg fun d _ => mul_self_nonneg _
theorem normC_pos (n : Fin 16384) : 0 < normC zc eps n := lt_of_lt_of_le eps_pos (le_max_right _ _)
theorem normS_pos (v : Fin 4) (n : Fin 16384) : 0 < normS zs eps v n := lt_of_lt_of_le eps_pos (le_max_right _ _)

section
variable (x : S512x512.Idx → EReal) (y : S4x512x512.Idx → EReal)
  (hx : ∀ r d, x (ix2 r d) = ((zc (row t r) d : ℝ) : EReal))
  (hy : ∀ v r d, y (ix3 v r d) = ((zs v (row t r) d : ℝ) : EReal))
include hx

theorem rowSq_real (r : Fin 512) : rowSq x r = ((sqC zc (row t r) : ℝ) : EReal) := by
  unfold rowSq sqC
  rw [← coe_sum]
  exact Finset.sum_congr rfl fun d _ => by rw [hx, ← EReal.coe_mul]

include hy

theorem rowSqS_real (v : Fin 4) (r : Fin 512) : rowSqS y v r = ((sqS zs v (row t r) : ℝ) : EReal) := by
  unfold rowSqS sqS
  rw [← coe_sum]
  exact Finset.sum_congr rfl fun d _ => by rw [hy, ← EReal.coe_mul]

theorem rowDot_real (v : Fin 4) (r : Fin 512) :
    rowDot x y v r = ((∑ d : Fin 512, zc (row t r) d * zs v (row t r) d : ℝ) : EReal) := by
  unfold rowDot
  rw [← coe_sum]
  exact Finset.sum_congr rfl fun d _ => by rw [hx, hy, ← EReal.coe_mul]

/-- A row's cosine term is the real cosine. -/
theorem cosE_real (v : Fin 4) (r : Fin 512) : cosE x y v r = ((cosine zc zs eps v (row t r) : ℝ) : EReal) := by
  unfold cosE cosine
  rw [rowDot_real zc zs t x y hx hy, rowSq_real zc t x hx, rowSqS_real zc zs t x y hx hy, epsE, ofBits_eps,
    sqrt_coe_nonneg _ (sqC_nonneg zc _), sqrt_coe_nonneg _ (sqS_nonneg zs _ _), max_coe, max_coe, ← EReal.coe_mul]
  exact div_coe_coe _ _ (mul_pos (normC_pos zc _) (normS_pos zs _ _)).ne'

end

/-- The first accumulator after tile `t`, from the real `a` it held. -/
theorem pay5_tile (x : Vec Ideal S512x512 .f32) (hx : ∀ r d, x (ix2 r d) = ((zc (row t r) d : ℝ) : EReal))
    (acc : Vec Ideal S1x1 .f32) (a : ℝ) (ha : ∀ j, acc j = ((a : ℝ) : EReal)) (j : S1x1.Idx) :
    k0_pay5 (F := Ideal) x acc j = ((a + (0 - tileCommon zc t) : ℝ) : EReal) := by
  rw [pay5_apply, ha]
  have hs : ∑ r : Fin 512, rowSq x r = ((tileCommon zc t : ℝ) : EReal) := by
    unfold tileCommon
    rw [← coe_sum]
    exact Finset.sum_congr rfl fun r _ => rowSq_real zc t x hx r
  rw [hs, ← EReal.coe_zero, ← EReal.coe_sub, ← EReal.coe_add]

/-- The second accumulator after tile `t`, from the real `a` it held. -/
theorem pay16_tile (x : Vec Ideal S512x512 .f32) (y : Vec Ideal S4x512x512 .f32)
    (hx : ∀ r d, x (ix2 r d) = ((zc (row t r) d : ℝ) : EReal))
    (hy : ∀ v r d, y (ix3 v r d) = ((zs v (row t r) d : ℝ) : EReal))
    (acc : Vec Ideal S1x1 .f32) (a : ℝ) (ha : ∀ j, acc j = ((a : ℝ) : EReal)) (j : S1x1.Idx) :
    k0_pay1 (F := Ideal) (k0_pay6 x y) acc j = ((a + (0 - tileSpecial zc zs eps t) : ℝ) : EReal) := by
  rw [pay1_apply, pay6_apply, ha]
  have hs : ∑ v : Fin 4, ∑ r : Fin 512, cosE x y v r = ((tileSpecial zc zs eps t : ℝ) : EReal) := by
    unfold tileSpecial
    rw [← coe_sum]
    refine Finset.sum_congr rfl fun v _ => ?_
    rw [← coe_sum]
    exact Finset.sum_congr rfl fun r _ => cosE_real zc zs t x y hx hy v r
  rw [hs, ← EReal.coe_zero, ← EReal.coe_sub, ← EReal.coe_add]

end Cert.KernelIdeal.Tile

end
-- ==== Proof.KernelAccum.lean ====
/-
  What the two accumulators hold after each grid point, on real inputs. The grid has 32 points; point t reads rows
  512·t … 512·t+511 of the common array and of the four views (`xblk_apply`, `yblk_apply`: a block's entry (r, d) is the
  array's entry (512·t + r, d)). By induction on the point, after point n the first accumulator holds the real
  −Σ_{k ≤ n} (tile k's sum of squares) and the second −Σ_{k ≤ n} (tile k's sum of cosines): the first point starts
  from the zeros it stores, every later point from what the point before left.
-/
import proofs.«132644_j36155034697795_1_alg».proof.Proof.Gen.KernelIdeal.Frame
import proofs.«132644_j36155034697795_1_alg».proof.Proof.KernelPieces
import proofs.«132644_j36155034697795_1_alg».proof.Proof.KernelTileReal
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.CosLoss Cert.KernelIdeal.Tile

variable (m : (ℓ : Loc nD τ sig) → Buf (Elt Ideal) ℓ)

/-- A grid point as a tile number. -/
def tile (t : Fin cfg0.N) : Fin 32 := ⟨t.val, lt_of_lt_of_eq t.isLt N_0⟩

/-- The two input blocks at a point and the two argument arrays, at their literal types. -/
abbrev xblk (c : Dev nD) (t : Fin cfg0.N) : Vec Ideal S512x512 .f32 := iblk m c 0 t
abbrev yblk (c : Dev nD) (t : Fin cfg0.N) : Vec Ideal S4x512x512 .f32 := iblk m c 1 t
abbrev xarr (c : Dev nD) : Vec Ideal S16384x512 .f32 := V m c main_arg0
abbrev yarr (c : Dev nD) : Vec Ideal S4x16384x512 .f32 := V m c main_arg1

/-- The index maps over the grid: point t takes row block t of the common array and, of every view, row block t. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- Entry (r, d) of the common array's block at point t is the array's entry (512·t + r, d). -/
theorem xblk_apply (c : Dev nD) (t : Fin cfg0.N) (r d : Fin 512) :
    xblk m c t (ix2 r d) = xarr m c (ix2 (row (tile t) r) d) := by
  unfold xblk iblk
  rw [View.read_apply]
  show V m c main_arg0 _ = V m c main_arg0 _
  congr 1
  funext a
  apply Fin.ext
  match a with
  | ⟨0, _⟩ => show win0_0.index t 0 * 512 + 1 * r.val = 512 * t.val + r.val; rw [(idx0 t).1]; omega
  | ⟨1, _⟩ => show win0_0.index t 1 * 512 + 1 * d.val = d.val; rw [(idx0 t).2]; omega

/-- Entry (v, r, d) of the views' block at point t is the array's entry (v, 512·t + r, d). -/
theorem yblk_apply (c : Dev nD) (t : Fin cfg0.N) (v : Fin 4) (r d : Fin 512) :
    yblk m c t (ix3 v r d) = yarr m c (ix3 v (row (tile t) r) d) := by
  unfold yblk iblk
  rw [View.read_apply]
  show V m c main_arg1 _ = V m c main_arg1 _
  congr 1
  funext a
  apply Fin.ext
  match a with
  | ⟨0, _⟩ => show win0_1.index t 0 * 4 + 1 * v.val = v.val; rw [(idx1 t).1]; omega
  | ⟨1, _⟩ => show win0_1.index t 1 * 512 + 1 * r.val = 512 * t.val + r.val; rw [(idx1 t).2.1]; omega
  | ⟨2, _⟩ => show win0_1.index t 2 * 512 + 1 * d.val = d.val; rw [(idx1 t).2.2]; omega

/-- The zero the first point stores is the real 0. -/
theorem zero2 (j : S1x1.Idx) : k0_pay2 (F := Ideal) j = ((0 : ℝ) : EReal) :=
  (show k0_pay2 (F := Ideal) j = Ideal.ofBits .f32 0x00000000#32 from rfl).trans (Ideal.ofBits_zero_f32.trans EReal.coe_zero.symm)
theorem zero3 (j : S1x1.Idx) : k0_pay3 (F := Ideal) j = ((0 : ℝ) : EReal) :=
  (show k0_pay3 (F := Ideal) j = Ideal.ofBits .f32 0x00000000#32 from rfl).trans (Ideal.ofBits_zero_f32.trans EReal.coe_zero.symm)

section
variable (c : Dev nD) (zc : Fin 16384 → Fin 512 → ℝ) (zs : Fin 4 → Fin 16384 → Fin 512 → ℝ)
  (h0 : ∀ n d, xarr m c (ix2 n d) = ((zc n d : ℝ) : EReal))
  (h1 : ∀ v n d, yarr m c (ix3 v n d) = ((zs v n d : ℝ) : EReal))
include h0 h1

/-- The blocks at a point hold the tile's rows of the real arrays. -/
theorem xblk_real (t : Fin cfg0.N) (r d : Fin 512) : xblk m c t (ix2 r d) = ((zc (row (tile t) r) d : ℝ) : EReal) :=
  (xblk_apply m c t r d).trans (h0 _ _)
theorem yblk_real (t : Fin cfg0.N) (v : Fin 4) (r d : Fin 512) :
    yblk m c t (ix3 v r d) = ((zs v (row (tile t) r) d : ℝ) : EReal) :=
  (yblk_apply m c t v r d).trans (h1 _ _ _)

/-- After point n the accumulators hold the running totals. -/
theorem outsAt_real : ∀ (n : ℕ) (hn : n < cfg0.N) (j : S1x1.Idx),
    (outsAt0 m c n hn).1 j = ((accCommon zc n : ℝ) : EReal)
      ∧ (outsAt0 m c n hn).2 j = ((accSpecial zc zs eps n : ℝ) : EReal)
  | 0, hn, j => by
    rw [outsAt0_A m c ⟨0, hn⟩ rfl]
    dsimp only
    refine ⟨?_, ?_⟩
    · refine (congrFun (Pieces.out_A_2 (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) (ms0_3 ⟨0, hn⟩) (hs0_3 ⟨0, hn⟩) _ (iblk m c 0 ⟨0, hn⟩) (iblk m c 1 ⟨0, hn⟩)) j).trans ?_
      refine (pay5_tile zc (tile ⟨0, hn⟩) (xblk m c ⟨0, hn⟩) (xblk_real m c zc zs h0 h1 ⟨0, hn⟩) (k0_pay2 (F := Ideal)) 0 zero2 j).trans ?_
      rw [accCommon_zero]
      rfl
    · refine (congrFun (Pieces.out_A_3 (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) (ms0_3 ⟨0, hn⟩) (hs0_3 ⟨0, hn⟩) _ (iblk m c 0 ⟨0, hn⟩) (iblk m c 1 ⟨0, hn⟩)) j).trans ?_
      refine (pay16_tile zc zs (tile ⟨0, hn⟩) (xblk m c ⟨0, hn⟩) (yblk m c ⟨0, hn⟩) (xblk_real m c zc zs h0 h1 ⟨0, hn⟩)
        (yblk_real m c zc zs h0 h1 ⟨0, hn⟩) (k0_pay3 (F := Ideal)) 0 zero3 j).trans ?_
      rw [accSpecial_zero]
      rfl
  | n + 1, hn, j => by
    have hN : cfg0.N = 32 := N_0
    have h32 : n + 1 < 32 := lt_of_lt_of_eq hn hN
    have hB : ¬(⟨n + 1, hn⟩ : Fin cfg0.N).val % 32 = 0 := by dsimp only; omega
    have ih := outsAt_real n (Nat.lt_of_succ_lt hn)
    rw [outsAt0_B m c ⟨n + 1, hn⟩ hB]
    dsimp only
    refine ⟨?_, ?_⟩
    · refine (congrFun (Pieces.out_B_2 (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) _ (iblk m c 0 ⟨n + 1, hn⟩) (iblk m c 1 ⟨n + 1, hn⟩)
        (outsAt0 m c n (Nat.lt_of_succ_lt hn)).1 (outsAt0 m c n (Nat.lt_of_succ_lt hn)).2) j).trans ?_
      refine (pay5_tile zc (tile ⟨n + 1, hn⟩) (xblk m c ⟨n + 1, hn⟩) (xblk_real m c zc zs h0 h1 ⟨n + 1, hn⟩)
        (outsAt0 m c n (Nat.lt_of_succ_lt hn)).1 (accCommon zc n) (fun j' => (ih j').1) j).trans ?_
      rw [accCommon_succ zc n h32]
      rfl
    · refine (congrFun (Pieces.out_B_3 (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) _ (iblk m c 0 ⟨n + 1, hn⟩) (iblk m c 1 ⟨n + 1, hn⟩)
        (outsAt0 m c n (Nat.lt_of_succ_lt hn)).1 (outsAt0 m c n (Nat.lt_of_succ_lt hn)).2) j).trans ?_
      refine (pay16_tile zc zs (tile ⟨n + 1, hn⟩) (xblk m c ⟨n + 1, hn⟩) (yblk m c ⟨n + 1, hn⟩) (xblk_real m c zc zs h0 h1 ⟨n + 1, hn⟩)
        (yblk_real m c zc zs h0 h1 ⟨n + 1, hn⟩) (outsAt0 m c n (Nat.lt_of_succ_lt hn)).2 (accSpecial zc zs eps n) (fun j' => (ih j').2) j).trans ?_
      rw [accSpecial_succ zc zs eps n h32]
      rfl

end

end Cert.KernelIdeal.Accum

end
-- ==== Proof.KernelRun.lean ====
/-
  The kernel's run on real inputs, read to its result. Both accumulators are written back once, after the last grid
  point, and each block is its whole one-entry array; so the two result arrays end holding the running totals after
  point 31, which are the whole-array losses (the 32 tiles are all the rows). The host operations after the region then
  stack the two entries into the result of length 2.
-/
import proofs.«132644_j36155034697795_1_alg».proof.Proof.Gen.KernelIdeal.Frame
import proofs.«132644_j36155034697795_1_alg».proof.Proof.KernelAccum
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.Run

open Cert.KernelIdeal Cert.KernelIdeal.Gen Cert.CosLoss Cert.KernelIdeal.Accum

variable (m : (ℓ : Loc nD τ sig) → Buf (Elt Ideal) ℓ) (ρ : Dev nD → PrngReg)

/-- The last grid point. -/
def tLast : Fin cfg0.N := ⟨31, by rw [show cfg0.N = 32 from N_0]; decide⟩

/-- A one-entry array holding the real `a`. -/
def unit (a : ℝ) : Vec Ideal S1x1 .f32 := fun _ => ((a : ℝ) : EReal)

/-- The stacking the host does after the region, of two one-entry arrays. -/
def stack (a b : Vec Ideal S1x1 .f32) : FVec Ideal S2 .f32 :=
  concatenate S2 0 [⟨S1, broadcastInDim S1 ![] bcast_S_S1 (shapeCast S_ a shapeCasts_S1x1_S_)⟩,
    ⟨S1, broadcastInDim S1 ![] bcast_S_S1 (shapeCast S_ b shapeCasts_S1x1_S_)⟩] concatenates_S1_S1_S2_d0

/-- The last point's block of each accumulator's array is the whole one-entry array. -/
theorem cover2 (i : S1x1.Idx) : ∃ t : Fin cfg0.N, (cfg0.win 2).flush t = true ∧ i ∈ ((cfg0.win 2).blk t).view.set :=
  ⟨tLast, (flush0_2 tLast).mpr rfl, by
    show i ∈ ((View.whole main_v0_0).slice (win0_2.rect tLast)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index tLast 0 * win0_2.size 0 ≤ (i 0 : Nat) ∧ (i 0 : Nat) < win0_2.index tLast 0 * win0_2.size 0 + win0_2.xsize (grid0.coords tLast) 0
      rw [show win0_2.index tLast 0 * win0_2.size 0 = 0 from by decide +kernel, show win0_2.xsize (grid0.coords tLast) 0 = 1 from by decide +kernel]; omega
    | ⟨1, _⟩ =>
      show win0_2.index tLast 1 * win0_2.size 1 ≤ (i 1 : Nat) ∧ (i 1 : Nat) < win0_2.index tLast 1 * win0_2.size 1 + win0_2.xsize (grid0.coords tLast) 1
      rw [show win0_2.index tLast 1 * win0_2.size 1 = 0 from by decide +kernel, show win0_2.xsize (grid0.coords tLast) 1 = 1 from by decide +kernel]; omega⟩

theorem cover3 (i : S1x1.Idx) : ∃ t : Fin cfg0.N, (cfg0.win 3).flush t = true ∧ i ∈ ((cfg0.win 3).blk t).view.set :=
  ⟨tLast, (flush0_3 tLast).mpr rfl, by
    show i ∈ ((View.whole main_v0_1).slice (win0_3.rect tLast)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index tLast 0 * win0_3.size 0 ≤ (i 0 : Nat) ∧ (i 0 : Nat) < win0_3.index tLast 0 * win0_3.size 0 + win0_3.xsize (grid0.coords tLast) 0
      rw [show win0_3.index tLast 0 * win0_3.size 0 = 0 from by decide +kernel, show win0_3.xsize (grid0.coords tLast) 0 = 1 from by decide +kernel]; omega
    | ⟨1, _⟩ =>
      show win0_3.index tLast 1 * win0_3.size 1 ≤ (i 1 : Nat) ∧ (i 1 : Nat) < win0_3.index tLast 1 * win0_3.size 1 + win0_3.xsize (grid0.coords tLast) 1
      rw [show win0_3.index tLast 1 * win0_3.size 1 = 0 from by decide +kernel, show win0_3.xsize (grid0.coords tLast) 1 = 1 from by decide +kernel]; omega⟩

section
variable (c : Dev nD) (zc : Fin 16384 → Fin 512 → ℝ) (zs : Fin 4 → Fin 16384 → Fin 512 → ℝ)
  (h0 : ∀ n d, xarr m c (ix2 n d) = ((zc n d : ℝ) : EReal))
  (h1 : ∀ v n d, yarr m c (ix3 v n d) = ((zs v n d : ℝ) : EReal))
include h0 h1

/-- The one write-back of the first accumulator, after the last point, writes the common loss. -/
theorem flushed2 (t : Fin cfg0.N) (hf : (cfg0.win 2).flush t = true) :
    (dats m 0 c).flushed 2 t = ((cfg0.win 2).blk t).view.read (Elt Ideal) (unit (lossCommon zc)) := by
  have hN : cfg0.N = 32 := N_0
  have h31 : t.val = 31 := by have := (flush0_2 t).mp hf; have := t.isLt; omega
  obtain ⟨n, hn⟩ := t
  dsimp only at h31
  subst h31
  funext y
  rw [View.read_apply]
  show (dats m 0 c).after 2 ⟨31, hn⟩ _ = _
  rw [after0_2]
  exact ((outsAt_real m c zc zs h0 h1 31 hn _).1).trans (congrArg _ (accCommon_last zc))

/-- The one write-back of the second accumulator writes the special loss. -/
theorem flushed3 (t : Fin cfg0.N) (hf : (cfg0.win 3).flush t = true) :
    (dats m 0 c).flushed 3 t = ((cfg0.win 3).blk t).view.read (Elt Ideal) (unit (lossSpecial zc zs eps)) := by
  have hN : cfg0.N = 32 := N_0
  have h31 : t.val = 31 := by have := (flush0_3 t).mp hf; have := t.isLt; omega
  obtain ⟨n, hn⟩ := t
  dsimp only at h31
  subst h31
  funext y
  rw [View.read_apply]
  show (dats m 0 c).after 3 ⟨31, hn⟩ _ = _
  rw [after0_3]
  exact ((outsAt_real m c zc zs h0 h1 31 hn _).2).trans (congrArg _ (accSpecial_last zc zs eps))

/-- So the two result arrays of the region end holding the two losses. -/
theorem final2 : (dats m 0 c).arrAt 2 cfg0.N = unit (lossCommon zc) :=
  (dats m 0 c).arrAt_eq_of_cover 2 (unit (lossCommon zc)) (flushed2 m c zc zs h0 h1) cover2
theorem final3 : (dats m 0 c).arrAt 3 cfg0.N = unit (lossSpecial zc zs eps) :=
  (dats m 0 c).arrAt_eq_of_cover 3 (unit (lossSpecial zc zs eps)) (flushed3 m c zc zs h0 h1) cover3

/-- The host operations after the region stack the two entries. -/
theorem tail_eq : Pipeline.afterTail₀ cfgs (dats m) 0 (V0 m) [hostOps1] c main_v5
    = stack (unit (lossCommon zc)) (unit (lossSpecial zc zs eps)) := by
  unfold Pipeline.afterTail₀
  show StableHlo.after hostOps1 _ (Proc.devRef .tc main_v5) = _
  after_results
  have e2 : Pipeline.withArrays (cfgs 0).spec c (V0 m c) (fun w => (dats m 0 c).arrAt w (cfgs 0).N)
      (Proc.tc.devRef main_v0_0) = unit (lossCommon zc) :=
    (Pipeline.withArrays_arr spec0 launch0.win.arr_inj c _ _ 2).trans (final2 m c zc zs h0 h1)
  have e3 : Pipeline.withArrays (cfgs 0).spec c (V0 m c) (fun w => (dats m 0 c).arrAt w (cfgs 0).N)
      (Proc.tc.devRef main_v0_1) = unit (lossSpecial zc zs eps) :=
    (Pipeline.withArrays_arr spec0 launch0.win.arr_inj c _ _ 3).trans (final3 m c zc zs h0 h1)
  rw [e2, e3]
  rfl

/-- THE RUN, read: the result holds the two losses stacked, the arguments are unchanged. -/
theorem run_real : θ_run defs (onTc (τ := τ) (main (F := Ideal))) ⟨m, fun _ => 0, ρ⟩ fun r =>
    r.2.mem ((c.tc : Thread nD τ).loc main_v5) = stack (unit (lossCommon zc)) (unit (lossSpecial zc zs eps))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h =>
    ⟨((h c).2 main_v5 (by decide)).trans (tail_eq m c zc zs h0 h1),
      ((h c).1 0).trans (((dats m 0 c).arrAt_in 0 rfl _).trans (V_main_arg0 m c)),
      ((h c).1 1).trans (((dats m 0 c).arrAt_in 1 rfl _).trans (V_main_arg1 m c))⟩)
    (run_main m ρ)

end

end Cert.KernelIdeal.Run

end
-- ==== Proof.RefValue.lean ====
/-
  The reference's two results on real inputs: its first entry is minus the sum of all squares of the common array, its
  second minus the sum over every entry of the product of the two normalised entries.
-/
import proofs.«132644_j36155034697795_1_alg».proof.Proof.Gen.ReferenceIdeal.Read
import proofs.«132644_j36155034697795_1_alg».proof.Proof.RealLoss
import proofs.«132644_j36155034697795_1_alg».proof.Proof.IdealReal
import Idealize.ShloMosaic.Lib.ValueIdx

noncomputable section

open scoped BigOperators
open Idealize.ShloMosaic Idealize.ShloMosaic.ValueIdx

namespace Cert.CosLoss

open Cert.ReferenceIdeal

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A row's sum of squares is nonnegative. -/
private theorem sqC_nonneg (zc : Fin 16384 → Fin 512 → ℝ) (n : Fin 16384) : 0 ≤ sqC zc n :=
  Finset.sum_nonneg fun d _ => mul_self_nonneg (zc n d)

private theorem sqS_nonneg (zs : Fin 4 → Fin 16384 → Fin 512 → ℝ) (v : Fin 4) (n : Fin 16384) : 0 ≤ sqS zs v n :=
  Finset.sum_nonneg fun d _ => mul_self_nonneg (zs v n d)

/-- A floored norm is at least the floor, which is positive: it is not zero. -/
private theorem normC_ne_zero (zc : Fin 16384 → Fin 512 → ℝ) (n : Fin 16384) : normC zc eps n ≠ 0 :=
  ne_of_gt (lt_of_lt_of_le eps_pos (le_max_right _ _))

private theorem normS_ne_zero (zs : Fin 4 → Fin 16384 → Fin 512 → ℝ) (v : Fin 4) (n : Fin 16384) :
    normS zs eps v n ≠ 0 :=
  ne_of_gt (lt_of_lt_of_le eps_pos (le_max_right _ _))

theorem ref_common (x0 : (⟨S16384x512, .f32⟩ : BufTy).Contents (Elt Ideal)) (zc : Fin 16384 → Fin 512 → ℝ)
    (h0 : ∀ n d, x0 (ix2 n d) = ((zc n d : ℝ) : EReal)) (i : S_.Idx) :
    Read.val_main_v2 (F := Ideal) x0 i = ((lossCommon zc : ℝ) : EReal) := by
  rw [Read.val_main_v2_apply, Read.val_main_v1_apply, Read.val_main_cst_apply]
  simp only [Ideal.hostNegf_def, Ideal.negf_def, Ideal.ofBits_def, Ideal.ofBits_zero_f32, zero_add]
  rw [sum_idx2]
  simp only [Read.val_main_v0_apply, Ideal.mulf_def, h0, ← EReal.coe_mul, coe_sum]
  rw [← EReal.coe_neg]
  rfl

section Common

variable (x0 : (⟨S16384x512, .f32⟩ : BufTy).Contents (Elt Ideal)) (zc : Fin 16384 → Fin 512 → ℝ)
  (h0 : ∀ n d, x0 (ix2 n d) = ((zc n d : ℝ) : EReal))

include h0

/-- The row sums of squares of the common array. -/
private theorem rowsq_common (n : Fin 16384) :
    Read.val_main_call0_v1 (F := Ideal) x0 (ix1 n) = ((sqC zc n : ℝ) : EReal) := by
  rw [Read.val_main_call0_v1_apply, Read.val_main_call0_cst_apply, Ideal.ofBits_def, Ideal.ofBits_zero_f32, zero_add]
  unfold sqC
  rw [← coe_sum]
  refine Finset.sum_congr rfl fun k _ => ?_
  rw [Read.val_main_call0_v0_apply, Ideal.mulf_def,
    show Read.idx_main_call0_v1 (ix1 n) k = ix2 n k from
      funext fun a => by match a with | ⟨0, _⟩ => rfl | ⟨1, _⟩ => rfl,
    h0, EReal.coe_mul]

/-- The floored row norms of the common array. -/
private theorem norm_common (n : Fin 16384) :
    Read.val_main_v5 (F := Ideal) x0 (ix2 n (0 : Fin 1)) = ((normC zc eps n : ℝ) : EReal) := by
  rw [Read.val_main_v5_apply, Read.val_main_v3_apply, Read.val_main_call0_v2_apply,
    show Read.idx_main_call0_v2 (ix2 n (0 : Fin 1)) = ix1 n from
      funext fun a => by match a with | ⟨0, _⟩ => rfl,
    rowsq_common x0 zc h0,
    Read.val_main_v4_apply, Read.val_main_cst_0_apply]
  simp only [Ideal.maximumf_def, Ideal.hostUnary_sqrt_def, Ideal.ofBits_def]
  rw [ofBits_eps, sqrt_coe_nonneg _ (sqC_nonneg zc _), max_coe]
  rfl

/-- The normalised entries of the common array. -/
private theorem unit_common (n : Fin 16384) (d : Fin 512) :
    Read.val_main_v7 (F := Ideal) x0 (ix2 n d) = ((zc n d / normC zc eps n : ℝ) : EReal) := by
  rw [Read.val_main_v7_apply, Read.val_main_v6_apply,
    show Read.idx_main_v6 (ix2 n d) = ix2 n (0 : Fin 1) from
      funext fun a => by match a with | ⟨0, _⟩ => rfl | ⟨1, _⟩ => rfl,
    norm_common x0 zc h0, h0, Ideal.hostDivf_def]
  exact div_coe_coe _ _ (normC_ne_zero zc n)

end Common

section Special

variable (x1 : (⟨S4x16384x512, .f32⟩ : BufTy).Contents (Elt Ideal)) (zs : Fin 4 → Fin 16384 → Fin 512 → ℝ)
  (h1 : ∀ v n d, x1 (ix3 v n d) = ((zs v n d : ℝ) : EReal))

include h1

/-- The row sums of squares of each view of the special array. -/
private theorem rowsq_special (v : Fin 4) (n : Fin 16384) :
    Read.val_main_call1_v1 (F := Ideal) x1 (ix2 v n) = ((sqS zs v n : ℝ) : EReal) := by
  rw [Read.val_main_call1_v1_apply, Read.val_main_call1_cst_apply, Ideal.ofBits_def, Ideal.ofBits_zero_f32, zero_add]
  unfold sqS
  rw [← coe_sum]
  refine Finset.sum_congr rfl fun k _ => ?_
  rw [Read.val_main_call1_v0_apply, Ideal.mulf_def,
    show Read.idx_main_call1_v1 (ix2 v n) k = ix3 v n k from
      funext fun a => by match a with | ⟨0, _⟩ => rfl | ⟨1, _⟩ => rfl | ⟨2, _⟩ => rfl,
    h1, EReal.coe_mul]

/-- The floored row norms of each view of the special array. -/
private theorem norm_special (v : Fin 4) (n : Fin 16384) :
    Read.val_main_v10 (F := Ideal) x1 (ix3 v n (0 : Fin 1)) = ((normS zs eps v n : ℝ) : EReal) := by
  rw [Read.val_main_v10_apply, Read.val_main_v8_apply, Read.val_main_call1_v2_apply,
    show Read.idx_main_call1_v2 (ix3 v n (0 : Fin 1)) = ix2 v n from
      funext fun a => by match a with | ⟨0, _⟩ => rfl | ⟨1, _⟩ => rfl,
    rowsq_special x1 zs h1,
    Read.val_main_v9_apply, Read.val_main_cst_1_apply]
  simp only [Ideal.maximumf_def, Ideal.hostUnary_sqrt_def, Ideal.ofBits_def]
  rw [ofBits_eps, sqrt_coe_nonneg _ (sqS_nonneg zs _ _), max_coe]
  rfl

/-- The normalised entries of the special array. -/
private theorem unit_special (v : Fin 4) (n : Fin 16384) (d : Fin 512) :
    Read.val_main_v12 (F := Ideal) x1 (ix3 v n d) = ((zs v n d / normS zs eps v n : ℝ) : EReal) := by
  rw [Read.val_main_v12_apply, Read.val_main_v11_apply,
    show Read.idx_main_v11 (ix3 v n d) = ix3 v n (0 : Fin 1) from
      funext fun a => by match a with | ⟨0, _⟩ => rfl | ⟨1, _⟩ => rfl | ⟨2, _⟩ => rfl,
    norm_special x1 zs h1, h1, Ideal.hostDivf_def]
  exact div_coe_coe _ _ (normS_ne_zero zs v n)

end Special

/-- One entry of the product of the two normalised arrays. -/
private theorem prod_entry (x0 : (⟨S16384x512, .f32⟩ : BufTy).Contents (Elt Ideal))
    (x1 : (⟨S4x16384x512, .f32⟩ : BufTy).Contents (Elt Ideal))
    (zc : Fin 16384 → Fin 512 → ℝ) (zs : Fin 4 → Fin 16384 → Fin 512 → ℝ)
    (h0 : ∀ n d, x0 (ix2 n d) = ((zc n d : ℝ) : EReal)) (h1 : ∀ v n d, x1 (ix3 v n d) = ((zs v n d : ℝ) : EReal))
    (v : Fin 4) (n : Fin 16384) (d : Fin 512) :
    Read.val_main_v15 (F := Ideal) x0 x1 (ix3 v n d)
      = (((zc n d / normC zc eps n) * (zs v n d / normS zs eps v n) : ℝ) : EReal) := by
  rw [Read.val_main_v15_apply, Read.val_main_v14_apply, Read.val_main_v13_apply, unit_special x1 zs h1,
    show Read.idx_main_v13 (Read.idx_main_v14 (ix3 v n d)) = ix2 n d from
      funext fun a => by match a with | ⟨0, _⟩ => rfl | ⟨1, _⟩ => rfl,
    unit_common x0 zc h0, Ideal.mulf_def, ← EReal.coe_mul]

theorem ref_special (x0 : (⟨S16384x512, .f32⟩ : BufTy).Contents (Elt Ideal))
    (x1 : (⟨S4x16384x512, .f32⟩ : BufTy).Contents (Elt Ideal))
    (zc : Fin 16384 → Fin 512 → ℝ) (zs : Fin 4 → Fin 16384 → Fin 512 → ℝ)
    (h0 : ∀ n d, x0 (ix2 n d) = ((zc n d : ℝ) : EReal)) (h1 : ∀ v n d, x1 (ix3 v n d) = ((zs v n d : ℝ) : EReal))
    (i : S_.Idx) :
    Read.val_main_v17 (F := Ideal) x0 x1 i = ((lossSpecial zc zs eps : ℝ) : EReal) := by
  rw [Read.val_main_v17_apply, Read.val_main_v16_apply, Read.val_main_cst_2_apply]
  simp only [Ideal.hostNegf_def, Ideal.negf_def, Ideal.ofBits_def, Ideal.ofBits_zero_f32, zero_add]
  rw [sum_idx3]
  simp only [prod_entry x0 x1 zc zs h0 h1, coe_sum]
  rw [← EReal.coe_neg]
  rfl

end Cert.CosLoss

end
-- ==== Proof.RefResult.lean ====
/-
  The reference's result on real inputs is the same stacked pair the kernel's run ends at: its two scalar results are
  the common loss and the special loss (as read off the reference's operations one by one), and a one-entry array read
  as a scalar is its entry.
-/
import proofs.«132644_j36155034697795_1_alg».proof.Proof.RefValue
import proofs.«132644_j36155034697795_1_alg».proof.Proof.KernelRun

noncomputable section

open Idealize.ShloMosaic Idealize.ShloMosaic.ValueIdx

namespace Cert.CosLoss

open Cert.KernelIdeal.Run (stack unit)

theorem ref_result (x0 : (⟨Cert.ReferenceIdeal.S16384x512, .f32⟩ : BufTy).Contents (Elt Ideal))
    (x1 : (⟨Cert.ReferenceIdeal.S4x16384x512, .f32⟩ : BufTy).Contents (Elt Ideal))
    (zc : Fin 16384 → Fin 512 → ℝ) (zs : Fin 4 → Fin 16384 → Fin 512 → ℝ)
    (h0 : ∀ n d, x0 (ix2 n d) = ((zc n d : ℝ) : EReal)) (h1 : ∀ v n d, x1 (ix3 v n d) = ((zs v n d : ℝ) : EReal)) :
    Cert.ReferenceIdeal.Read.val_main_v20 (F := Ideal) x0 x1 = stack (unit (lossCommon zc)) (unit (lossSpecial zc zs eps)) := by
  have a : Cert.ReferenceIdeal.Read.val_main_v2 (F := Ideal) x0
      = shapeCast Cert.KernelIdeal.S_ (unit (lossCommon zc)) Cert.KernelIdeal.Facts₀.shapeCasts_S1x1_S_ :=
    funext fun i => (ref_common x0 zc h0 i).trans rfl
  have b : Cert.ReferenceIdeal.Read.val_main_v17 (F := Ideal) x0 x1
      = shapeCast Cert.KernelIdeal.S_ (unit (lossSpecial zc zs eps)) Cert.KernelIdeal.Facts₀.shapeCasts_S1x1_S_ :=
    funext fun i => (ref_special x0 x1 zc zs h0 h1 i).trans rfl
  unfold Cert.ReferenceIdeal.Read.val_main_v20 Cert.ReferenceIdeal.Read.val_main_v18 Cert.ReferenceIdeal.Read.val_main_v19
  rw [a, b]
  rfl

end Cert.CosLoss

end
-- ==== Proof.lean ====
/- The kernel computes two losses of a common array zc (16384 × 512) and four views zs (4 × 16384 × 512):
     loss_common  = − Σ_{n,d} zc[n,d]²,
     loss_special = − Σ_{v,n} cos(zc[n,·], zs[v,n,·]),  the cosine with each norm floored at ε (the float nearest 1e-12),
   accumulating both over 32 tiles of 512 rows: tile t adds (0 − Σ over its rows) to an accumulator zeroed at the first
   tile and written back after the last. The reference normalises every row of zc and of each view by its floored norm
   and sums all products of matching entries. On finite inputs (the precondition) every entry is a real number, all the
   sums are finite sums of reals, both floored norms are at least ε > 0, and
     Σ_d (x_d / a)(y_d / b) = (Σ_d x_d y_d) / (a b),      Σ_{t < 32} Σ_{r < 512} g(512 t + r) = Σ_{n < 16384} g(n),
   so both programs end with the same two extended reals, stacked into the result of length 2.
   Proof/RealLoss.lean has the two real-number identities, Proof/IdealReal.lean the ideal operations on reals,
   Proof/FiniteInputs.lean what the precondition says, Proof/RefValue.lean and Proof/RefResult.lean the reference's value,
   Proof/KernelPieces.lean … Proof/KernelRun.lean the kernel's: what one tile adds, the running totals by induction on
   the tile, the single write-back, the host operations after it. The ideal pass rewrote nothing, so the kernel's
   idealization is its own text and `preserves` is `True`. -/
import proofs.«132644_j36155034697795_1_alg».proof.Defs
import proofs.«132644_j36155034697795_1_alg».proof.Proof.Gen.Kernel
import proofs.«132644_j36155034697795_1_alg».proof.Proof.Gen.Kernel.Skeleton
import proofs.«132644_j36155034697795_1_alg».proof.Proof.Gen.Kernel.Launch
import proofs.«132644_j36155034697795_1_alg».proof.Proof.Gen.Kernel.Points
import proofs.«132644_j36155034697795_1_alg».proof.Proof.Gen.Kernel.Frame
import proofs.«132644_j36155034697795_1_alg».proof.Proof.Gen.KernelIdeal
import proofs.«132644_j36155034697795_1_alg».proof.Proof.Gen.KernelIdeal.Skeleton
import proofs.«132644_j36155034697795_1_alg».proof.Proof.Gen.KernelIdeal.Launch
import proofs.«132644_j36155034697795_1_alg».proof.Proof.Gen.KernelIdeal.Points
import proofs.«132644_j36155034697795_1_alg».proof.Proof.Gen.KernelIdeal.Frame
import proofs.«132644_j36155034697795_1_alg».proof.Proof.Gen.ReferenceIdeal
import proofs.«132644_j36155034697795_1_alg».proof.Proof.Gen.Pre_finite_inputs
import proofs.«132644_j36155034697795_1_alg».proof.Proof.Gen.ReferenceIdeal.Run
import proofs.«132644_j36155034697795_1_alg».proof.Proof.Gen.ReferenceIdeal.Read
import proofs.«132644_j36155034697795_1_alg».proof.Proof.FiniteInputs
import proofs.«132644_j36155034697795_1_alg».proof.Proof.KernelRun
import proofs.«132644_j36155034697795_1_alg».proof.Proof.RefResult
import Idealize.ShloMosaic.Adequacy
import Idealize.ShloMosaic.Init

noncomputable section

namespace Cert.Proof

open Idealize.ShloMosaic Idealize.SL.Sem

/-- The word-level kernel and its idealization run and leave their arguments unchanged (the generated frames). -/
theorem frame_k : Cert.frame_Kernel := fun m ρ _ => Cert.Kernel.Gen.frame m ρ
theorem frame_ki : Cert.frame_KernelIdeal := fun m ρ _ => Cert.KernelIdeal.Gen.frame m ρ
/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs both idealized programs end at the two real losses of the inputs' real entries, stacked. -/
theorem algebraic : Cert.algebraic_KernelIdeal_ReferenceIdeal := by
  intro m ρ m' ρ' hpre hagree
  obtain ⟨zc, zs, h0, h1⟩ := Cert.CosLoss.real_of_pre _ _ (hpre 0)
  refine ⟨fun _ => Cert.KernelIdeal.Run.stack (Cert.KernelIdeal.Run.unit (Cert.CosLoss.lossCommon zc))
    (Cert.KernelIdeal.Run.unit (Cert.CosLoss.lossSpecial zc zs Cert.CosLoss.eps)), ?_, ?_⟩
  · refine (θ_run Cert.KernelIdeal.defs _ _).mono (fun _ h c => ?_) (Cert.KernelIdeal.Run.run_real m ρ 0 zc zs h0 h1)
    obtain rfl : c = 0 := Subsingleton.elim _ _
    exact h
  · refine (θ_run Cert.ReferenceIdeal.defs _ _).mono (fun _ h c => ⟨(h c).1.trans ?_, (h c).2⟩)
      (Cert.ReferenceIdeal.Value.run (F := Ideal) m' ρ')
    obtain rfl : c = 0 := Subsingleton.elim _ _
    rw [(hagree 0).1, (hagree 0).2, Cert.ReferenceIdeal.Read.val_main_v20_eq]
    exact Cert.CosLoss.ref_result _ _ zc zs h0 h1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
